-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4000000 : Shape := ⟨1, ![4000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S100000x64 .f32) (main_arg1 : FVec F S50000x64 .f32) (main_arg2 : FVec F S4000000 .f32) (main_arg3 : IVec S4000000 32) (main_arg4 : IVec S4000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S4000000 : Shape := ⟨1, ![4000000]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S8000x64 : Shape := ⟨2, ![8000, 64]⟩
abbrev S8000x1 : Shape := ⟨2, ![8000, 1]⟩
abbrev S6000x64 : Shape := ⟨2, ![6000, 64]⟩

abbrev nBuf : Space → Nat
  | .hbm => 54
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S150000x64, .f32⟩
  | .hbm, ⟨6, _⟩ => ⟨S4000000x1, .f32⟩
  | .hbm, ⟨7, _⟩ => ⟨S_, .i32⟩
  | .hbm, ⟨8, _⟩ => ⟨S4000000, .i32⟩
  | .hbm, ⟨9, _⟩ => ⟨S4000000, .i1⟩
  | .hbm, ⟨10, _⟩ => ⟨S_, .i32⟩
  | .hbm, ⟨11, _⟩ => ⟨S4000000, .i32⟩
  | .hbm, ⟨12, _⟩ => ⟨S4000000, .i32⟩
  | .hbm, ⟨13, _⟩ => ⟨S4000000, .i32⟩
  | .hbm, ⟨14, _⟩ => ⟨S4000000x1, .i32⟩
  | .hbm, ⟨15, _⟩ => ⟨S4000000x64, .f32⟩
  | .hbm, ⟨16, _⟩ => ⟨S4000000x64, .f32⟩
  | .hbm, ⟨17, _⟩ => ⟨S_, .f32⟩
  | .hbm, ⟨18, _⟩ => ⟨S150000x64, .f32⟩
  | .hbm, ⟨19, _⟩ => ⟨S4000000x1, .i32⟩
  | .hbm, ⟨20, _⟩ => ⟨S150000x64, .f32⟩
  | .hbm, ⟨21, _⟩ => ⟨S150000x64, .f32⟩
  | .hbm, ⟨22, _⟩ => ⟨S_, .i32⟩
  | .hbm, ⟨23, _⟩ => ⟨S4000000, .i32⟩
  | .hbm, ⟨24, _⟩ => ⟨S4000000, .i1⟩
  | .hbm, ⟨25, _⟩ => ⟨S_, .i32⟩
  | .hbm, ⟨26, _⟩ => ⟨S4000000, .i32⟩
  | .hbm, ⟨27, _⟩ => ⟨S4000000, .i32⟩
  | .hbm, ⟨28, _⟩ => ⟨S4000000, .i32⟩
  | .hbm, ⟨29, _⟩ => ⟨S4000000x1, .i32⟩
  | .hbm, ⟨30, _⟩ => ⟨S4000000x64, .f32⟩
  | .hbm, ⟨31, _⟩ => ⟨S4000000x64, .f32⟩
  | .hbm, ⟨32, _⟩ => ⟨S_, .f32⟩
  | .hbm, ⟨33, _⟩ => ⟨S150000x64, .f32⟩
  | .hbm, ⟨34, _⟩ => ⟨S4000000x1, .i32⟩
  | .hbm, ⟨35, _⟩ => ⟨S150000x64, .f32⟩
  | .hbm, ⟨36, _⟩ => ⟨S150000x64, .f32⟩
  | .hbm, ⟨37, _⟩ => ⟨S_, .i32⟩
  | .hbm, ⟨38, _⟩ => ⟨S4000000, .i32⟩
  | .hbm, ⟨39, _⟩ => ⟨S4000000, .i1⟩
  | .hbm, ⟨40, _⟩ => ⟨S_, .i32⟩
  | .hbm, ⟨41, _⟩ => ⟨S4000000, .i32⟩
  | .hbm, ⟨42, _⟩ => ⟨S4000000, .i32⟩
  | .hbm, ⟨43, _⟩ => ⟨S4000000, .i32⟩
  | .hbm, ⟨44, _⟩ => ⟨S4000000x1, .i32⟩
  | .hbm, ⟨45, _⟩ => ⟨S4000000x64, .f32⟩
  | .hbm, ⟨46, _⟩ => ⟨S4000000x64, .f32⟩
  | .hbm, ⟨47, _⟩ => ⟨S_, .f32⟩
  | .hbm, ⟨48, _⟩ => ⟨S150000x64, .f32⟩
  | .hbm, ⟨49, _⟩ => ⟨S4000000x1, .i32⟩
  | .hbm, ⟨50, _⟩ => ⟨S150000x64, .f32⟩
  | .hbm, ⟨51, _⟩ => ⟨S150000x64, .f32⟩
  | .hbm, ⟨52, _⟩ => ⟨S100000x64, .f32⟩
  | .hbm, ⟨53, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x1, .f32⟩
  | .local _ .vmem, ⟨3, _⟩ => ⟨S8000x1, .f32⟩
  | .local _ .vmem, ⟨4, _⟩ => ⟨S8000x64, .f32⟩
  | .local _ .vmem, ⟨5, _⟩ => ⟨S8000x64, .f32⟩
  | .local _ .vmem, ⟨6, _⟩ => ⟨S6000x64, .f32⟩
  | .local _ .vmem, ⟨7, _⟩ => ⟨S6000x64, .f32⟩
  | .local _ .vmem, ⟨8, _⟩ => ⟨S6000x64, .f32⟩
  | .local _ .vmem, ⟨9, _⟩ => ⟨S6000x64, .f32⟩
  | .local _ .vmem, ⟨10, _⟩ => ⟨S6000x64, .f32⟩
  | .local _ .vmem, ⟨11, _⟩ => ⟨S6000x64, .f32⟩
  | .local _ .vmem, ⟨12, _⟩ => ⟨S8000x64, .f32⟩
  | .local _ .vmem, ⟨13, _⟩ => ⟨S8000x64, .f32⟩
  | .local _ .vmem, ⟨14, _⟩ => ⟨S8000x1, .f32⟩
  | .local _ .vmem, ⟨15, _⟩ => ⟨S8000x1, .f32⟩
  | .local _ .vmem, ⟨16, _⟩ => ⟨S8000x64, .f32⟩
  | .local _ .vmem, ⟨17, _⟩ => ⟨S8000x64, .f32⟩
  | .local _ .vmem, ⟨18, _⟩ => ⟨S6000x64, .f32⟩
  | .local _ .vmem, ⟨19, _⟩ => ⟨S6000x64, .f32⟩
  | .local _ .vmem, ⟨20, _⟩ => ⟨S6000x64, .f32⟩
  | .local _ .vmem, ⟨21, _⟩ => ⟨S6000x64, .f32⟩
  | .local _ .vmem, ⟨22, _⟩ => ⟨S6000x64, .f32⟩
  | .local _ .vmem, ⟨23, _⟩ => ⟨S6000x64, .f32⟩
  | .local _ .vmem, ⟨24, _⟩ => ⟨S8000x64, .f32⟩
  | .local _ .vmem, ⟨25, _⟩ => ⟨S8000x64, .f32⟩
  | .local _ .vmem, ⟨26, _⟩ => ⟨S8000x1, .f32⟩
  | .local _ .vmem, ⟨27, _⟩ => ⟨S8000x1, .f32⟩
  | .local _ .vmem, ⟨28, _⟩ => ⟨S8000x64, .f32⟩
  | .local _ .vmem, ⟨29, _⟩ => ⟨S8000x64, .f32⟩
  | .local _ .vmem, ⟨30, _⟩ => ⟨S6000x64, .f32⟩
  | .local _ .vmem, ⟨31, _⟩ => ⟨S6000x64, .f32⟩
  | .local _ .vmem, ⟨32, _⟩ => ⟨S6000x64, .f32⟩
  | .local _ .vmem, ⟨33, _⟩ => ⟨S6000x64, .f32⟩
  | .local _ .vmem, ⟨34, _⟩ => ⟨S6000x64, .f32⟩
  | .local _ .vmem, ⟨35, _⟩ => ⟨S6000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![500], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S6000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S150000x64 : S_.BroadcastsInDim S150000x64 (![] : Fin 0 → Fin S150000x64.rank)
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  slices_S150000x64_S100000x64_0_0 : S150000x64.Slices ![0, 0] S100000x64
  slices_S150000x64_S50000x64_100000_0 : S150000x64.Slices ![100000, 0] S50000x64
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S4000000x64.size a
  hwx0_0 : ∀ i : grid0.Coords, EltTy.bits .f32 = 32 ∨ (Rect.block (s := S4000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S4000000x1.size a
  hwx0_1 : ∀ i : grid0.Coords, EltTy.bits .f32 = 32 ∨ (Rect.block (s := S4000000x1) S8000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S4000000x64.size a
  hwx0_2 : ∀ i : grid0.Coords, EltTy.bits .f32 = 32 ∨ (Rect.block (s := S4000000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S150000x64.size a
  hwx1_0 : ∀ i : grid1.Coords, EltTy.bits .f32 = 32 ∨ (Rect.block (s := S150000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S150000x64.size a
  hwx1_1 : ∀ i : grid1.Coords, EltTy.bits .f32 = 32 ∨ (Rect.block (s := S150000x64) S6000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x64.size a ≤ S150000x64.size a
  hwx1_2 : ∀ i : grid1.Coords, EltTy.bits .f32 = 32 ∨ (Rect.block (s := S150000x64) S6000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S4000000x64.size a
  hwx2_0 : ∀ i : grid2.Coords, EltTy.bits .f32 = 32 ∨ (Rect.block (s := S4000000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S4000000x1.size a
  hwx2_1 : ∀ i : grid2.Coords, EltTy.bits .f32 = 32 ∨ (Rect.block (s := S4000000x1) S8000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S4000000x64.size a
  hwx2_2 : ∀ i : grid2.Coords, EltTy.bits .f32 = 32 ∨ (Rect.block (s := S4000000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x64.size a ≤ S150000x64.size a
  hwx3_0 : ∀ i : grid3.Coords, EltTy.bits .f32 = 32 ∨ (Rect.block (s := S150000x64) S6000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x64.size a ≤ S150000x64.size a
  hwx3_1 : ∀ i : grid3.Coords, EltTy.bits .f32 = 32 ∨ (Rect.block (s := S150000x64) S6000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6000x64.size a ≤ S150000x64.size a
  hwx3_2 : ∀ i : grid3.Coords, EltTy.bits .f32 = 32 ∨ (Rect.block (s := S150000x64) S6000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S4000000x64.size a
  hwx4_0 : ∀ i : grid4.Coords, EltTy.bits .f32 = 32 ∨ (Rect.block (s := S4000000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S4000000x1.size a
  hwx4_1 : ∀ i : grid4.Coords, EltTy.bits .f32 = 32 ∨ (Rect.block (s := S4000000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S4000000x64.size a
  hwx4_2 : ∀ i : grid4.Coords, EltTy.bits .f32 = 32 ∨ (Rect.block (s := S4000000x64) S8000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x64.size a ≤ S150000x64.size a
  hwx5_0 : ∀ i : grid5.Coords, EltTy.bits .f32 = 32 ∨ (Rect.block (s := S150000x64) S6000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6000x64.size a ≤ S150000x64.size a
  hwx5_1 : ∀ i : grid5.Coords, EltTy.bits .f32 = 32 ∨ (Rect.block (s := S150000x64) S6000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6000x64.size a ≤ S150000x64.size a
  hwx5_2 : ∀ i : grid5.Coords, EltTy.bits .f32 = 32 ∨ (Rect.block (s := S150000x64) S6000x64.size (cc5_transform_2 i) (hinb5_2 i)).WholeWords (EltTy.packing .f32)

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

abbrev win0_0 : Pipeline.Window sig grid0 :=
  Pipeline.Window.ofSpec (Memref.whole main_v8) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S6000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v20) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v13) S6000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S6000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S6000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v32) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v33) S8000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v25) S6000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S6000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v37) S6000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4000000 : Shape := ⟨1, ![4000000]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩

abbrev nBuf : Space → Nat
  | .hbm => 62
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S150000x64, .f32⟩
  | .hbm, ⟨6, _⟩ => ⟨S4000000x1, .f32⟩
  | .hbm, ⟨7, _⟩ => ⟨S_, .i32⟩
  | .hbm, ⟨8, _⟩ => ⟨S4000000, .i32⟩
  | .hbm, ⟨9, _⟩ => ⟨S4000000, .i1⟩
  | .hbm, ⟨10, _⟩ => ⟨S_, .i32⟩
  | .hbm, ⟨11, _⟩ => ⟨S4000000, .i32⟩
  | .hbm, ⟨12, _⟩ => ⟨S4000000, .i32⟩
  | .hbm, ⟨13, _⟩ => ⟨S4000000, .i32⟩
  | .hbm, ⟨14, _⟩ => ⟨S4000000x1, .i32⟩
  | .hbm, ⟨15, _⟩ => ⟨S4000000x64, .f32⟩
  | .hbm, ⟨16, _⟩ => ⟨S4000000x64, .f32⟩
  | .hbm, ⟨17, _⟩ => ⟨S4000000x64, .f32⟩
  | .hbm, ⟨18, _⟩ => ⟨S_, .f32⟩
  | .hbm, ⟨19, _⟩ => ⟨S150000x64, .f32⟩
  | .hbm, ⟨20, _⟩ => ⟨S4000000x1, .i32⟩
  | .hbm, ⟨21, _⟩ => ⟨S150000x64, .f32⟩
  | .hbm, ⟨22, _⟩ => ⟨S150000x64, .f32⟩
  | .hbm, ⟨23, _⟩ => ⟨S4000000x1, .f32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000x64, .f32⟩
  | .hbm, ⟨33, _⟩ => ⟨S4000000x64, .f32⟩
  | .hbm, ⟨34, _⟩ => ⟨S4000000x64, .f32⟩
  | .hbm, ⟨35, _⟩ => ⟨S_, .f32⟩
  | .hbm, ⟨36, _⟩ => ⟨S150000x64, .f32⟩
  | .hbm, ⟨37, _⟩ => ⟨S4000000x1, .i32⟩
  | .hbm, ⟨38, _⟩ => ⟨S150000x64, .f32⟩
  | .hbm, ⟨39, _⟩ => ⟨S150000x64, .f32⟩
  | .hbm, ⟨40, _⟩ => ⟨S4000000x1, .f32⟩
  | .hbm, ⟨41, _⟩ => ⟨S_, .i32⟩
  | .hbm, ⟨42, _⟩ => ⟨S4000000, .i32⟩
  | .hbm, ⟨43, _⟩ => ⟨S4000000, .i1⟩
  | .hbm, ⟨44, _⟩ => ⟨S_, .i32⟩
  | .hbm, ⟨45, _⟩ => ⟨S4000000, .i32⟩
  | .hbm, ⟨46, _⟩ => ⟨S4000000, .i32⟩
  | .hbm, ⟨47, _⟩ => ⟨S4000000, .i32⟩
  | .hbm, ⟨48, _⟩ => ⟨S4000000x1, .i32⟩
  | .hbm, ⟨49, _⟩ => ⟨S4000000x64, .f32⟩
  | .hbm, ⟨50, _⟩ => ⟨S4000000x64, .f32⟩
  | .hbm, ⟨51, _⟩ => ⟨S4000000x64, .f32⟩
  | .hbm, ⟨52, _⟩ => ⟨S_, .f32⟩
  | .hbm, ⟨53, _⟩ => ⟨S150000x64, .f32⟩
  | .hbm, ⟨54, _⟩ => ⟨S4000000x1, .i32⟩
  | .hbm, ⟨55, _⟩ => ⟨S150000x64, .f32⟩
  | .hbm, ⟨56, _⟩ => ⟨S150000x64, .f32⟩
  | .hbm, ⟨57, _⟩ => ⟨S_, .f32⟩
  | .hbm, ⟨58, _⟩ => ⟨S150000x64, .f32⟩
  | .hbm, ⟨59, _⟩ => ⟨S150000x64, .f32⟩
  | .hbm, ⟨60, _⟩ => ⟨S100000x64, .f32⟩
  | .hbm, ⟨61, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

class Facts : Prop extends Facts₀ where

variable [Facts]
-- ==== Proof.Rounds.lean ====
/-
  Three rounds of message passing over an edge list and the mean of the four node tables, as functions of whole arrays.

  A node table has one row per node (the users' rows above the items') and 64 columns. One round reads, for every edge
  `e`, the row of the table its column index names, multiplies it by the edge's weight (`scaled`: the message), and adds
  the messages of all edges with the same row index into that row of a fresh table (the program's gather and scatter-add,
  which stay opaque here: both programs spell them alike). The result is the mean of the starting table and the three
  rounds' tables: their sum, taken three times as `a + b` and the fourth time closed by the factor one quarter.

  The two programs differ in two places only, and both are laws of the extended reals that need no finiteness:
  the message is `row · weight` in one and `weight · row` in the other (commutativity), and the closing factor is a
  product with the float `0.25`, which is exactly 1/4, in one and a quotient by the float `4.0` in the other
  (a quotient by a nonzero real is the product with its reciprocal, on every extended real).
-/
import Idealize.ShloMosaic.PureOps.Ideal
import Idealize.ShloMosaic.Lib.ValueIdx
import Idealize.ShloMosaic.Lib.Pipeline.Value

noncomputable section

namespace Cert.MessagePassing

open Idealize.ShloMosaic Idealize.ShloMosaic.ValueIdx

/-- One row per edge, one column per embedding coordinate. -/
abbrev EdgeRows : Shape := ⟨2, ![4000000, 64]⟩
/-- One weight per edge, as a column. -/
abbrev EdgeCol : Shape := ⟨2, ![4000000, 1]⟩
/-- One row per node, one column per embedding coordinate. -/
abbrev NodeRows : Shape := ⟨2, ![150000, 64]⟩
/-- The shape of a single number. -/
abbrev One : Shape := ⟨0, ![]⟩

/-- The row of the weight column that belongs to entry `i` of the edge rows: the same edge, the column's one entry. -/
abbrev weightAt (i : EdgeRows.Idx) : EdgeCol.Idx := ix2 (n0 := 4000000) (n1 := 1) (i 0) 0

section AnyInstance
variable {F : FTy → Type} [FloatOps F]

/-- The messages: edge `e`'s gathered row times edge `e`'s weight, entry by entry. -/
def scaled (g : FVec F EdgeRows .f32) (w : FVec F EdgeCol .f32) : FVec F EdgeRows .f32 :=
  fun i => FloatOps.mulf (g i) (w (weightAt i))

/-- The sum of two node tables times one quarter: what closes the mean of four tables. -/
def quartered (a b : FVec F NodeRows .f32) : FVec F NodeRows .f32 :=
  mulf (addf a b) (broadcast NodeRows (Scalar.ofBits .f32 0x3E800000#32))

end AnyInstance

/-- One round: gather along the edges, scale, scatter back to the nodes. -/
def round {A E : Type} (gather : A → E) (scale : E → E) (scatter : E → A) (x : A) : A := scatter (scale (gather x))

/-- The starting table and three rounds of it, summed left to right, the last sum closed by `close`. -/
def meanOfRounds {A E : Type} (gather : A → E) (scale : E → E) (scatter : E → A) (add close : A → A → A) (x : A) : A :=
  close (add (add x (round gather scale scatter x)) (round gather scale scatter (round gather scale scatter x)))
    (round gather scale scatter (round gather scale scatter (round gather scale scatter x)))

/-! ## The two laws, at the extended reals -/

/-- The float `0.25` denotes the real 1/4. -/
theorem quarter : Ideal.ofBits .f32 0x3E800000#32 = ((1 / 4 : ℝ) : EReal) := by
  simp [Ideal.ofBits, Ideal.ieee, -EReal.coe_mul]; norm_num

/-- The float `4.0` denotes the real 4. -/
theorem four : Ideal.ofBits .f32 0x40800000#32 = ((4 : ℝ) : EReal) := by
  simp [Ideal.ofBits, Ideal.ieee, -EReal.coe_mul]; norm_num

/-- The messages are the host's product of the weight column, spread along the rows, with the gathered rows: the
    factors in the other order. -/
theorem scaled_eq_host (h : EdgeCol.BroadcastsInDim EdgeRows (![0, 1] : Fin 2 → Fin EdgeRows.rank))
    (g : FVec Ideal EdgeRows .f32) (w : FVec Ideal EdgeCol .f32) :
    scaled g w = mulf (broadcastInDim EdgeRows ![0, 1] h w) g := by
  funext i
  show g i * w (weightAt i) = broadcastInDim EdgeRows ![0, 1] h w i * g i
  rw [broadcastInDim_apply ![0, 1] h w i (weightAt i) (fun a => by
    match a with
    | ⟨0, _⟩ => rfl
    | ⟨1, _⟩ => rfl)]
  exact mul_comm _ _

/-- A sum times one quarter is the host's quotient of that sum by four, on every extended real. -/
theorem quartered_eq_host (h : One.BroadcastsInDim NodeRows (![] : Fin 0 → Fin NodeRows.rank))
    (a b : FVec Ideal NodeRows .f32) :
    quartered a b = Host.divf (addf a b) (broadcastInDim NodeRows ![] h (constant One .f32 0x40800000#32)) := by
  funext i
  show (a i + b i) * Ideal.ofBits .f32 0x3E800000#32 = Ideal.div (a i + b i) (Ideal.ofBits .f32 0x40800000#32)
  rw [quarter, four, Ideal.div_coe (by norm_num : (4 : ℝ) ≠ 0)]

end Cert.MessagePassing

end
-- ==== Proof.Scale0.lean ====
/-
  The first scaling launch as one function of whole arrays.

  The launch walks 500 grid points; point `t` stages rows `8000·t … 8000·t + 7999` of the gathered rows (all 64
  columns) and of the weight column, multiplies each staged row by its own weight, and writes the product back to the
  same rows of the result. The blocks of the result tile it — row `r` lies in the block of point `r / 8000` —, so the
  result array ends holding, at every entry `(e, d)`, the gathered entry `(e, d)` times weight `e`:
  `Cert.MessagePassing.scaled` of the two arrays as the launch finds them.
-/
import proofs.«101684_j49675591745779_1_alg».proof.Proof.Gen.KernelIdeal.Frame
import proofs.«101684_j49675591745779_1_alg».proof.Proof.Rounds
import Idealize.ShloMosaic.Lib.Pipeline.Value

set_option maxRecDepth 16384

noncomputable section

namespace Cert.KernelIdeal.Scale0

open Cert.KernelIdeal Cert.KernelIdeal.Gen Cert.MessagePassing
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The body's accesses start at the staging buffers' origin. -/
theorem origin : (![0, 0] : Fin 2 → Nat) = fun _ => 0 := funext fun a => by fin_cases a <;> rfl

/-- What the body stores, at entry `j` of the staged block: the staged row's entry times the staged weight of that row. -/
theorem stored_at (x0 : Vec F S8000x64 .f32) (x1 : Vec F S8000x1 .f32) (j : S8000x64.Idx) :
    k0_pay1 x0 x1 j = FloatOps.mulf (x0 j) (x1 (ix2 (n0 := 8000) (n1 := 1) (j 0) 0)) := by
  unfold k0_pay1
  show FloatOps.mulf (shapeCast S8000x64 x0 shapeCasts_S8000x64_S8000x64 j)
      (broadcastTo S8000x64 (shapeCast S8000x1 x1 shapeCasts_S8000x1_S8000x1) broadcasts_S8000x1_S8000x64 j) = _
  rw [shapeCast_self, shapeCast_self]
  exact congrArg _ (broadcastTo_apply x1 broadcasts_S8000x1_S8000x64 j _ (fun a => by
    match a with
    | ⟨0, _⟩ => rfl
    | ⟨1, _⟩ => rfl))

/-- At point `t` all three windows sit at block row `t`, block column 0 (decided over the 500 points). -/
theorem block_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the messages of the two arrays as the launch finds them. -/
theorem written (c : Dev nD) (t : Fin cfg0.N) :
    (dat0 V c).flushed 2 t = ((cfg0.win 2).blk t).view.read (Elt F) (scaled (V c main_v8) (V c main_v1)) := by
  show (cfg0.win 2).cut (grid0.coords t) ((dat0 V c).after 2 t) = _
  rw [after0_2]
  unfold out0_2
  rw [View.canon_unit_zero origin]
  simp only [View.ld_unit_zero (S := S8000x64) origin, View.ld_unit_zero (S := S8000x1) origin]
  obtain ⟨e0, e1, e2, e3, e4, e5⟩ := block_rows t
  funext j
  show k0_pay1 (iblk0 V c 0 t) (iblk0 V c 1 t) j
    = FloatOps.mulf (V c main_v8 (((cfg0.win 2).blk t).view.emb j)) (V c main_v1 (weightAt (((cfg0.win 2).blk t).view.emb j)))
  refine (stored_at (iblk0 V c 0 t) (iblk0 V c 1 t) j).trans ?_
  show FloatOps.mulf (V c main_v8 (((cfg0.win 0).blk t).view.emb j))
      (V c main_v1 (((cfg0.win 1).blk t).view.emb (ix2 (n0 := 8000) (n1 := 1) (j 0) 0))) = _
  have h0 : ((cfg0.win 0).blk t).view.emb j = ((cfg0.win 2).blk t).view.emb j := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (ix2 (n0 := 8000) (n1 := 1) (j 0) 0) = weightAt (((cfg0.win 2).blk t).view.emb j) := by
    funext a; apply Fin.ext
    match a with
    | ⟨0, _⟩ => show win0_1.index t (0 : Fin 2) * 8000 + 1 * (j 0).val = win0_2.index t (0 : Fin 2) * 8000 + 1 * (j 0).val; omega
    | ⟨1, _⟩ => show win0_1.index t (1 : Fin 2) * 1 + 1 * 0 = 0; omega
  rw [h0, h1]

/-- An entry of the result lies in point `t`'s block iff each coordinate lies in the block's range on its axis. -/
theorem mem_block (t : Fin cfg0.N) (i : S4000000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v9).slice (win0_2.rect t)).set ↔ _
  rw [View.set_slice_whole, Rect.mem_set_unit]
  exact Iff.rfl

/-- Every entry of the result lies in some point's block: row `r` in that of point `r / 8000`. -/
theorem covered (i : S4000000x64.Idx) :
    ∃ t : Fin cfg0.N, (cfg0.win 2).flush t = true ∧ i ∈ ((cfg0.win 2).blk t).view.set := by
  have hi0 : (i 0).val < 4000000 := (i 0).isLt
  have hi1 : (i 1).val < 64 := (i 1).isLt
  let t : Fin cfg0.N := Fin.cast N_0.symm ⟨(i 0).val / 8000, by omega⟩
  have ht : t.val = (i 0).val / 8000 := rfl
  obtain ⟨e0, e1, e2, e3, e4, e5⟩ := block_rows t
  refine ⟨t, flush0_2 t, ?_⟩
  rw [mem_block]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 64 ≤ (i 1).val ∧ (i 1).val < win0_2.index t (1 : Fin 2) * 64 + 64; omega

/-- After the launch its result array holds the messages of the two arrays it was entered with. -/
theorem result (c : Dev nD) : (dat0 V c).arrAt 2 cfg0.N = scaled (V c main_v8) (V c main_v1) :=
  (dat0 V c).arrAt_eq_of_cover 2 (scaled (V c main_v8) (V c main_v1)) (fun t _ => written V c t) covered

end Cert.KernelIdeal.Scale0

end
-- ==== Proof.Sum1.lean ====
/-
  The first accumulating launch as one function of whole arrays.

  The launch walks 25 grid points; point `t` stages rows `6000·t … 6000·t + 5999` (all 64 columns) of the running sum
  and of the round's table, adds them entry by entry, and writes the sums back to the same rows of the result. The
  blocks of the result tile it — row `r` lies in the block of point `r / 6000` —, so the result array ends holding the
  entrywise sum of the two arrays as the launch finds them.
-/
import proofs.«101684_j49675591745779_1_alg».proof.Proof.Gen.KernelIdeal.Frame
import Idealize.ShloMosaic.Lib.Pipeline.Value

set_option maxRecDepth 16384

noncomputable section

namespace Cert.KernelIdeal.Sum1

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's accesses start at the staging buffers' origin. -/
theorem origin : (![0, 0] : Fin 2 → Nat) = fun _ => 0 := funext fun a => by fin_cases a <;> rfl

/-- What the body stores: the entrywise sum of the two staged blocks. -/
theorem stored (x0 x1 : Vec F S6000x64 .f32) : k1_pay1 x0 x1 = addf x0 x1 := by
  unfold k1_pay1
  show addf (shapeCast S6000x64 x0 shapeCasts_S6000x64_S6000x64) (shapeCast S6000x64 x1 shapeCasts_S6000x64_S6000x64) = _
  rw [shapeCast_self, shapeCast_self]

/-- At point `t` all three windows sit at block row `t`, block column 0 (decided over the 25 points). -/
theorem block_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the sum of the two arrays as the launch finds them. -/
theorem written (c : Dev nD) (t : Fin cfg1.N) :
    (dat1 V c).flushed 2 t = ((cfg1.win 2).blk t).view.read (Elt F) (addf (V c main_v0) (V c main_v12)) := by
  show (cfg1.win 2).cut (grid1.coords t) ((dat1 V c).after 2 t) = _
  rw [after1_2]
  unfold out1_2
  rw [View.canon_unit_zero origin]
  simp only [View.ld_unit_zero (S := S6000x64) origin]
  obtain ⟨e0, e1, e2, e3, e4, e5⟩ := block_rows t
  funext j
  show k1_pay1 (iblk1 V c 0 t) (iblk1 V c 1 t) j
    = FloatOps.addf (V c main_v0 (((cfg1.win 2).blk t).view.emb j)) (V c main_v12 (((cfg1.win 2).blk t).view.emb j))
  refine (congrFun (stored (iblk1 V c 0 t) (iblk1 V c 1 t)) j).trans ?_
  show FloatOps.addf (V c main_v0 (((cfg1.win 0).blk t).view.emb j)) (V c main_v12 (((cfg1.win 1).blk t).view.emb j)) = _
  have h0 : ((cfg1.win 0).blk t).view.emb j = ((cfg1.win 2).blk t).view.emb j := by
    funext a; apply Fin.ext
    match a with
    | ⟨0, _⟩ => show win1_0.index t (0 : Fin 2) * 6000 + 1 * (j 0).val = win1_2.index t (0 : Fin 2) * 6000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 6000 + 1 * (j 0).val = win1_2.index t (0 : Fin 2) * 6000 + 1 * (j 0).val; omega
    | ⟨1, _⟩ => show win1_1.index t (1 : Fin 2) * 64 + 1 * (j 1).val = win1_2.index t (1 : Fin 2) * 64 + 1 * (j 1).val; omega
  rw [h0, h1]

/-- An entry of the result lies in point `t`'s block iff each coordinate lies in the block's range on its axis. -/
theorem mem_block (t : Fin cfg1.N) (i : S150000x64.Idx) :
    i ∈ ((cfg1.win 2).blk t).view.set ↔ ∀ a : Fin 2, win1_2.index t a * S6000x64.size a ≤ (i a).val ∧ (i a).val < win1_2.index t a * S6000x64.size a + S6000x64.size a := by
  show i ∈ ((View.whole main_v13).slice (win1_2.rect t)).set ↔ _
  rw [View.set_slice_whole, Rect.mem_set_unit]
  exact Iff.rfl

/-- Every entry of the result lies in some point's block: row `r` in that of point `r / 6000`. -/
theorem covered (i : S150000x64.Idx) :
    ∃ t : Fin cfg1.N, (cfg1.win 2).flush t = true ∧ i ∈ ((cfg1.win 2).blk t).view.set := by
  have hi0 : (i 0).val < 150000 := (i 0).isLt
  have hi1 : (i 1).val < 64 := (i 1).isLt
  let t : Fin cfg1.N := Fin.cast N_1.symm ⟨(i 0).val / 6000, by omega⟩
  have ht : t.val = (i 0).val / 6000 := rfl
  obtain ⟨e0, e1, e2, e3, e4, e5⟩ := block_rows t
  refine ⟨t, flush1_2 t, ?_⟩
  rw [mem_block]
  intro a
  match a with
  | ⟨0, _⟩ => show win1_2.index t (0 : Fin 2) * 6000 ≤ (i 0).val ∧ (i 0).val < win1_2.index t (0 : Fin 2) * 6000 + 6000; omega
  | ⟨1, _⟩ => show win1_2.index t (1 : Fin 2) * 64 ≤ (i 1).val ∧ (i 1).val < win1_2.index t (1 : Fin 2) * 64 + 64; omega

/-- After the launch its result array holds the sum of the two arrays it was entered with. -/
theorem result (c : Dev nD) : (dat1 V c).arrAt 2 cfg1.N = addf (V c main_v0) (V c main_v12) :=
  (dat1 V c).arrAt_eq_of_cover 2 (addf (V c main_v0) (V c main_v12)) (fun t _ => written V c t) covered

end Cert.KernelIdeal.Sum1

end
-- ==== Proof.Mean5.lean ====
/-
  The last accumulating launch as one function of whole arrays.

  The launch walks 25 grid points; point `t` stages rows `6000·t … 6000·t + 5999` (all 64 columns) of the running sum
  and of the last round's table, adds them entry by entry, multiplies every sum by the float `0.25`, and writes the
  products back to the same rows of the result. The blocks of the result tile it — row `r` lies in the block of point
  `r / 6000` —, so the result array ends holding `Cert.MessagePassing.quartered` of the two arrays as the launch finds
  them: their entrywise sum times one quarter.
-/
import proofs.«101684_j49675591745779_1_alg».proof.Proof.Gen.KernelIdeal.Frame
import proofs.«101684_j49675591745779_1_alg».proof.Proof.Rounds
import Idealize.ShloMosaic.Lib.Pipeline.Value

set_option maxRecDepth 16384

noncomputable section

namespace Cert.KernelIdeal.Mean5

open Cert.KernelIdeal Cert.KernelIdeal.Gen Cert.MessagePassing
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's accesses start at the staging buffers' origin. -/
theorem origin : (![0, 0] : Fin 2 → Nat) = fun _ => 0 := funext fun a => by fin_cases a <;> rfl

/-- What the body stores: the entrywise sum of the two staged blocks, every entry times the float `0.25`. -/
theorem stored (x0 x1 : Vec F S6000x64 .f32) :
    k5_pay1 x0 x1 = mulf (addf x0 x1) (broadcast S6000x64 (Scalar.ofBits .f32 0x3E800000#32)) := by
  unfold k5_pay1
  show mulf (addf (shapeCast S6000x64 x0 shapeCasts_S6000x64_S6000x64) (shapeCast S6000x64 x1 shapeCasts_S6000x64_S6000x64))
      (broadcast S6000x64 (Scalar.ofBits .f32 0x3E800000#32)) = _
  rw [shapeCast_self, shapeCast_self]

/-- At point `t` all three windows sit at block row `t`, block column 0 (decided over the 25 points). -/
theorem block_rows : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the quartered sum of the two arrays as the launch finds them. -/
theorem written (c : Dev nD) (t : Fin cfg5.N) :
    (dat5 V c).flushed 2 t = ((cfg5.win 2).blk t).view.read (Elt F) (quartered (V c main_v25) (V c main_v36)) := by
  show (cfg5.win 2).cut (grid5.coords t) ((dat5 V c).after 2 t) = _
  rw [after5_2]
  unfold out5_2
  rw [View.canon_unit_zero origin]
  simp only [View.ld_unit_zero (S := S6000x64) origin]
  obtain ⟨e0, e1, e2, e3, e4, e5⟩ := block_rows t
  funext j
  show k5_pay1 (iblk5 V c 0 t) (iblk5 V c 1 t) j
    = FloatOps.mulf (FloatOps.addf (V c main_v25 (((cfg5.win 2).blk t).view.emb j)) (V c main_v36 (((cfg5.win 2).blk t).view.emb j)))
        (Scalar.ofBits .f32 0x3E800000#32)
  refine (congrFun (stored (iblk5 V c 0 t) (iblk5 V c 1 t)) j).trans ?_
  show FloatOps.mulf (FloatOps.addf (V c main_v25 (((cfg5.win 0).blk t).view.emb j)) (V c main_v36 (((cfg5.win 1).blk t).view.emb j)))
      (Scalar.ofBits .f32 0x3E800000#32) = _
  have h0 : ((cfg5.win 0).blk t).view.emb j = ((cfg5.win 2).blk t).view.emb j := by
    funext a; apply Fin.ext
    match a with
    | ⟨0, _⟩ => show win5_0.index t (0 : Fin 2) * 6000 + 1 * (j 0).val = win5_2.index t (0 : Fin 2) * 6000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 6000 + 1 * (j 0).val = win5_2.index t (0 : Fin 2) * 6000 + 1 * (j 0).val; omega
    | ⟨1, _⟩ => show win5_1.index t (1 : Fin 2) * 64 + 1 * (j 1).val = win5_2.index t (1 : Fin 2) * 64 + 1 * (j 1).val; omega
  rw [h0, h1]

/-- An entry of the result lies in point `t`'s block iff each coordinate lies in the block's range on its axis. -/
theorem mem_block (t : Fin cfg5.N) (i : S150000x64.Idx) :
    i ∈ ((cfg5.win 2).blk t).view.set ↔ ∀ a : Fin 2, win5_2.index t a * S6000x64.size a ≤ (i a).val ∧ (i a).val < win5_2.index t a * S6000x64.size a + S6000x64.size a := by
  show i ∈ ((View.whole main_v37).slice (win5_2.rect t)).set ↔ _
  rw [View.set_slice_whole, Rect.mem_set_unit]
  exact Iff.rfl

/-- Every entry of the result lies in some point's block: row `r` in that of point `r / 6000`. -/
theorem covered (i : S150000x64.Idx) :
    ∃ t : Fin cfg5.N, (cfg5.win 2).flush t = true ∧ i ∈ ((cfg5.win 2).blk t).view.set := by
  have hi0 : (i 0).val < 150000 := (i 0).isLt
  have hi1 : (i 1).val < 64 := (i 1).isLt
  let t : Fin cfg5.N := Fin.cast N_5.symm ⟨(i 0).val / 6000, by omega⟩
  have ht : t.val = (i 0).val / 6000 := rfl
  obtain ⟨e0, e1, e2, e3, e4, e5⟩ := block_rows t
  refine ⟨t, flush5_2 t, ?_⟩
  rw [mem_block]
  intro a
  match a with
  | ⟨0, _⟩ => show win5_2.index t (0 : Fin 2) * 6000 ≤ (i 0).val ∧ (i 0).val < win5_2.index t (0 : Fin 2) * 6000 + 6000; omega
  | ⟨1, _⟩ => show win5_2.index t (1 : Fin 2) * 64 ≤ (i 1).val ∧ (i 1).val < win5_2.index t (1 : Fin 2) * 64 + 64; omega

/-- After the launch its result array holds the quartered sum of the two arrays it was entered with. -/
theorem result (c : Dev nD) : (dat5 V c).arrAt 2 cfg5.N = quartered (V c main_v25) (V c main_v36) :=
  (dat5 V c).arrAt_eq_of_cover 2 (quartered (V c main_v25) (V c main_v36)) (fun t _ => written V c t) covered

end Cert.KernelIdeal.Mean5

end
-- ==== Proof.Fold.lean ====
/-
  The kernel program's two results as functions of its five argument arrays.

  @main is thirteen stretches: host operations, then a scaling launch, host operations, an accumulating launch, and so
  on, three times over, and two slices at the end. The contents of the TensorCore's buffers at each boundary are a fold
  from the launch memory. This module walks that fold one boundary at a time and keeps, at each boundary, the few buffers
  a later stretch reads:

    * before the first launch the host has stacked the user rows above the item rows (`table`), made a column of the edge
      weights (`weights`), wrapped negative column indices (`sources`) and gathered the table's rows along the edges;
    * a scaling launch leaves `scaled` of the gathered rows and the weights (Proof/Scale0, 2, 4);
    * the host scatter-adds those messages into a zero table at the row indices (`scattered`): one round's table;
    * an accumulating launch leaves the running sum plus that table (Proof/Sum1, 3), the last one a quarter of it
      (Proof/Mean5);
    * an array that a launch only reads, and every buffer it does not stage, is as it was entered.

  So the array the two final slices cut is `meanOfRounds` of the stacked table: the table and its three rounds summed
  left to right, times one quarter.
-/
import proofs.«101684_j49675591745779_1_alg».proof.Proof.Gen.KernelIdeal.Frame
import proofs.«101684_j49675591745779_1_alg».proof.Proof.Rounds
import proofs.«101684_j49675591745779_1_alg».proof.Proof.Scale0
import proofs.«101684_j49675591745779_1_alg».proof.Proof.Scale2
import proofs.«101684_j49675591745779_1_alg».proof.Proof.Scale4
import proofs.«101684_j49675591745779_1_alg».proof.Proof.Sum1
import proofs.«101684_j49675591745779_1_alg».proof.Proof.Sum3
import proofs.«101684_j49675591745779_1_alg».proof.Proof.Mean5
import Idealize.ShloMosaic.Lib.StableHlo.Run

set_option maxRecDepth 16384

noncomputable section

namespace Cert.KernelIdeal.Fold

open Cert.KernelIdeal Cert.KernelIdeal.Gen Cert.MessagePassing
open Idealize.ShloMosaic Idealize.ShloMosaic.TcCoe Idealize.SL.Sem
open Idealize.ShloMosaic.Pipeline (Dat)

variable {F : FTy → Type} [FloatOps F]

/-! ## The host side's functions -/

/-- The node table: the user rows above the item rows. -/
def table (a0 : (⟨S100000x64, .f32⟩ : BufTy).Contents (Elt F)) (a1 : (⟨S50000x64, .f32⟩ : BufTy).Contents (Elt F)) :
    (⟨S150000x64, .f32⟩ : BufTy).Contents (Elt F) :=
  concatenate S150000x64 0 [⟨S100000x64, a0⟩, ⟨S50000x64, a1⟩] concatenates_S100000x64_S50000x64_S150000x64_d0

/-- The edge weights as a column. -/
def weights (a2 : (⟨S4000000, .f32⟩ : BufTy).Contents (Elt F)) : (⟨S4000000x1, .f32⟩ : BufTy).Contents (Elt F) :=
  broadcastInDim S4000000x1 ![0] bcast_S4000000_S4000000x1_0 a2

/-- The edges' column indices as a column, a negative one counted from the table's end. -/
def sources (a4 : (⟨S4000000, .i32⟩ : BufTy).Contents (Elt F)) : (⟨S4000000x1, .i32⟩ : BufTy).Contents (Elt F) :=
  broadcastInDim S4000000x1 ![0] bcast_S4000000_S4000000x1_0
    (select (cmpi .slt a4 (broadcastInDim S4000000 ![] bcast_S_S4000000 (constantI S_ 32 0#32)))
      (addi a4 (broadcastInDim S4000000 ![] bcast_S_S4000000 (constantI S_ 32 150000#32))) a4)

/-- The edges' row indices as a column. -/
def targets (a3 : (⟨S4000000, .i32⟩ : BufTy).Contents (Elt F)) : (⟨S4000000x1, .i32⟩ : BufTy).Contents (Elt F) :=
  broadcastInDim S4000000x1 ![0] bcast_S4000000_S4000000x1_0 a3

/-- A table's rows read along the edges' column indices. -/
def gathered (a4 : (⟨S4000000, .i32⟩ : BufTy).Contents (Elt F)) (x : (⟨S150000x64, .f32⟩ : BufTy).Contents (Elt F)) :
    (⟨S4000000x64, .f32⟩ : BufTy).Contents (Elt F) :=
  Host.gather gather_S150000x64_S4000000x1_S4000000x64_1_0_n_n_0_1_164 x (sources a4)

/-- Edge rows added into a zero table at the edges' row indices. -/
def scattered (a3 : (⟨S4000000, .i32⟩ : BufTy).Contents (Elt F)) (u : (⟨S4000000x64, .f32⟩ : BufTy).Contents (Elt F)) :
    (⟨S150000x64, .f32⟩ : BufTy).Contents (Elt F) :=
  Host.scatterAdd scatter_S150000x64_S4000000x1_S4000000x64_1_0_0_1
    (broadcastInDim S150000x64 ![] bcast_S_S150000x64 (constant S_ .f32 0x00000000#32)) (targets a3) u

variable (m : (ℓ : Loc nD τ sig) → Buf (Elt F) ℓ) (ρ : Dev nD → PrngReg) (c : Dev nD)

/-- The stacked table of the launch memory's two embedding arrays. -/
abbrev x0 : (⟨S150000x64, .f32⟩ : BufTy).Contents (Elt F) :=
  table (m ((c : Thread nD τ).loc main_arg0)) (m ((c : Thread nD τ).loc main_arg1))
/-- The weight column of the launch memory's edge weights. -/
abbrev wt : (⟨S4000000x1, .f32⟩ : BufTy).Contents (Elt F) := weights (m ((c : Thread nD τ).loc main_arg2))
/-- One round's gather from a table. -/
abbrev gth (x : (⟨S150000x64, .f32⟩ : BufTy).Contents (Elt F)) : (⟨S4000000x64, .f32⟩ : BufTy).Contents (Elt F) :=
  gathered (m ((c : Thread nD τ).loc main_arg4)) x
/-- One round's scatter of the messages. -/
abbrev sct (u : (⟨S4000000x64, .f32⟩ : BufTy).Contents (Elt F)) : (⟨S150000x64, .f32⟩ : BufTy).Contents (Elt F) :=
  scattered (m ((c : Thread nD τ).loc main_arg3)) u
/-- One round: gather, scale by the weights, scatter. -/
abbrev nxt (x : (⟨S150000x64, .f32⟩ : BufTy).Contents (Elt F)) : (⟨S150000x64, .f32⟩ : BufTy).Contents (Elt F) :=
  sct m c (scaled (gth m c x) (wt m c))

/-! ## Before the first scaling launch -/

theorem w1_v0 : W1 m ρ c (Proc.devRef .tc main_v0) = x0 m c := by
  show StableHlo.after hostOps0 (W0 m ρ c) (Proc.devRef .tc main_v0) = _
  dsimp only [hostOps0]; after_results; rfl
theorem w1_v1 : W1 m ρ c (Proc.devRef .tc main_v1) = wt m c := by
  show StableHlo.after hostOps0 (W0 m ρ c) (Proc.devRef .tc main_v1) = _
  dsimp only [hostOps0]; after_results; rfl
theorem w1_v8 : W1 m ρ c (Proc.devRef .tc main_v8) = gth m c (x0 m c) := by
  show StableHlo.after hostOps0 (W0 m ρ c) (Proc.devRef .tc main_v8) = _
  dsimp only [hostOps0]; after_results; rfl
theorem w1_a3 : W1 m ρ c (Proc.devRef .tc main_arg3) = m ((c : Thread nD τ).loc main_arg3) := by
  show StableHlo.after hostOps0 (W0 m ρ c) (Proc.devRef .tc main_arg3) = _
  dsimp only [hostOps0]; after_results
theorem w1_a4 : W1 m ρ c (Proc.devRef .tc main_arg4) = m ((c : Thread nD τ).loc main_arg4) := by
  show StableHlo.after hostOps0 (W0 m ρ c) (Proc.devRef .tc main_arg4) = _
  dsimp only [hostOps0]; after_results

/-! ## After the first scaling launch: the first messages -/

theorem w2_v9 : W2 m ρ c (Proc.devRef .tc main_v9) = scaled (gth m c (x0 m c)) (wt m c) := by
  refine (W2_arr m ρ c 2).trans ((Scale0.result (V1 m ρ) c).trans ?_)
  show scaled (W1 m ρ c (Proc.devRef .tc main_v8)) (W1 m ρ c (Proc.devRef .tc main_v1)) = _
  rw [w1_v8, w1_v1]
theorem w2_v1 : W2 m ρ c (Proc.devRef .tc main_v1) = wt m c :=
  (W2_arr m ρ c 1).trans (((dat0 (V1 m ρ) c).arrAt_in 1 rfl _).trans ((A_eq0 (V1 m ρ) c 1).trans (w1_v1 m ρ c)))
theorem w2_v0 : W2 m ρ c (Proc.devRef .tc main_v0) = x0 m c :=
  (W2_of_ne m ρ c main_v0 (by decide)).trans (w1_v0 m ρ c)
theorem w2_a3 : W2 m ρ c (Proc.devRef .tc main_arg3) = m ((c : Thread nD τ).loc main_arg3) :=
  (W2_of_ne m ρ c main_arg3 (by decide)).trans (w1_a3 m ρ c)
theorem w2_a4 : W2 m ρ c (Proc.devRef .tc main_arg4) = m ((c : Thread nD τ).loc main_arg4) :=
  (W2_of_ne m ρ c main_arg4 (by decide)).trans (w1_a4 m ρ c)

/-! ## Before the first accumulating launch: the first round's table -/

theorem w3_v12 : W3 m ρ c (Proc.devRef .tc main_v12) = nxt m c (x0 m c) := by
  show StableHlo.after hostOps1 (W2 m ρ c) (Proc.devRef .tc main_v12) = _
  dsimp only [hostOps1]; after_results
  rw [w2_a3, w2_v9]; rfl
theorem w3_v0 : W3 m ρ c (Proc.devRef .tc main_v0) = x0 m c := by
  show StableHlo.after hostOps1 (W2 m ρ c) (Proc.devRef .tc main_v0) = _
  dsimp only [hostOps1]; after_results; exact w2_v0 m ρ c
theorem w3_v1 : W3 m ρ c (Proc.devRef .tc main_v1) = wt m c := by
  show StableHlo.after hostOps1 (W2 m ρ c) (Proc.devRef .tc main_v1) = _
  dsimp only [hostOps1]; after_results; exact w2_v1 m ρ c
theorem w3_a3 : W3 m ρ c (Proc.devRef .tc main_arg3) = m ((c : Thread nD τ).loc main_arg3) := by
  show StableHlo.after hostOps1 (W2 m ρ c) (Proc.devRef .tc main_arg3) = _
  dsimp only [hostOps1]; after_results; exact w2_a3 m ρ c
theorem w3_a4 : W3 m ρ c (Proc.devRef .tc main_arg4) = m ((c : Thread nD τ).loc main_arg4) := by
  show StableHlo.after hostOps1 (W2 m ρ c) (Proc.devRef .tc main_arg4) = _
  dsimp only [hostOps1]; after_results; exact w2_a4 m ρ c

/-! ## After the first accumulating launch: the table plus its first round -/

theorem w4_v13 : W4 m ρ c (Proc.devRef .tc main_v13) = addf (x0 m c) (nxt m c (x0 m c)) := by
  refine (W4_arr m ρ c 2).trans ((Sum1.result (V3 m ρ) c).trans ?_)
  show addf (W3 m ρ c (Proc.devRef .tc main_v0)) (W3 m ρ c (Proc.devRef .tc main_v12)) = _
  rw [w3_v0, w3_v12]
theorem w4_v12 : W4 m ρ c (Proc.devRef .tc main_v12) = nxt m c (x0 m c) :=
  (W4_arr m ρ c 1).trans (((dat1 (V3 m ρ) c).arrAt_in 1 rfl _).trans ((A_eq1 (V3 m ρ) c 1).trans (w3_v12 m ρ c)))
theorem w4_v1 : W4 m ρ c (Proc.devRef .tc main_v1) = wt m c :=
  (W4_of_ne m ρ c main_v1 (by decide)).trans (w3_v1 m ρ c)
theorem w4_a3 : W4 m ρ c (Proc.devRef .tc main_arg3) = m ((c : Thread nD τ).loc main_arg3) :=
  (W4_of_ne m ρ c main_arg3 (by decide)).trans (w3_a3 m ρ c)
theorem w4_a4 : W4 m ρ c (Proc.devRef .tc main_arg4) = m ((c : Thread nD τ).loc main_arg4) :=
  (W4_of_ne m ρ c main_arg4 (by decide)).trans (w3_a4 m ρ c)

/-! ## Before the second scaling launch -/

theorem w5_v20 : W5 m ρ c (Proc.devRef .tc main_v20) = gth m c (nxt m c (x0 m c)) := by
  show StableHlo.after hostOps2 (W4 m ρ c) (Proc.devRef .tc main_v20) = _
  dsimp only [hostOps2]; after_results
  rw [w4_a4, w4_v12]; rfl
theorem w5_v1 : W5 m ρ c (Proc.devRef .tc main_v1) = wt m c := by
  show StableHlo.after hostOps2 (W4 m ρ c) (Proc.devRef .tc main_v1) = _
  dsimp only [hostOps2]; after_results; exact w4_v1 m ρ c
theorem w5_v13 : W5 m ρ c (Proc.devRef .tc main_v13) = addf (x0 m c) (nxt m c (x0 m c)) := by
  show StableHlo.after hostOps2 (W4 m ρ c) (Proc.devRef .tc main_v13) = _
  dsimp only [hostOps2]; after_results; exact w4_v13 m ρ c
theorem w5_a3 : W5 m ρ c (Proc.devRef .tc main_arg3) = m ((c : Thread nD τ).loc main_arg3) := by
  show StableHlo.after hostOps2 (W4 m ρ c) (Proc.devRef .tc main_arg3) = _
  dsimp only [hostOps2]; after_results; exact w4_a3 m ρ c
theorem w5_a4 : W5 m ρ c (Proc.devRef .tc main_arg4) = m ((c : Thread nD τ).loc main_arg4) := by
  show StableHlo.after hostOps2 (W4 m ρ c) (Proc.devRef .tc main_arg4) = _
  dsimp only [hostOps2]; after_results; exact w4_a4 m ρ c

/-! ## After the second scaling launch: the second messages -/

theorem w6_v21 : W6 m ρ c (Proc.devRef .tc main_v21) = scaled (gth m c (nxt m c (x0 m c))) (wt m c) := by
  refine (W6_arr m ρ c 2).trans ((Scale2.result (V5 m ρ) c).trans ?_)
  show scaled (W5 m ρ c (Proc.devRef .tc main_v20)) (W5 m ρ c (Proc.devRef .tc main_v1)) = _
  rw [w5_v20, w5_v1]
theorem w6_v1 : W6 m ρ c (Proc.devRef .tc main_v1) = wt m c :=
  (W6_arr m ρ c 1).trans (((dat2 (V5 m ρ) c).arrAt_in 1 rfl _).trans ((A_eq2 (V5 m ρ) c 1).trans (w5_v1 m ρ c)))
theorem w6_v13 : W6 m ρ c (Proc.devRef .tc main_v13) = addf (x0 m c) (nxt m c (x0 m c)) :=
  (W6_of_ne m ρ c main_v13 (by decide)).trans (w5_v13 m ρ c)
theorem w6_a3 : W6 m ρ c (Proc.devRef .tc main_arg3) = m ((c : Thread nD τ).loc main_arg3) :=
  (W6_of_ne m ρ c main_arg3 (by decide)).trans (w5_a3 m ρ c)
theorem w6_a4 : W6 m ρ c (Proc.devRef .tc main_arg4) = m ((c : Thread nD τ).loc main_arg4) :=
  (W6_of_ne m ρ c main_arg4 (by decide)).trans (w5_a4 m ρ c)

/-! ## Before the second accumulating launch: the second round's table -/

theorem w7_v24 : W7 m ρ c (Proc.devRef .tc main_v24) = nxt m c (nxt m c (x0 m c)) := by
  show StableHlo.after hostOps3 (W6 m ρ c) (Proc.devRef .tc main_v24) = _
  dsimp only [hostOps3]; after_results
  rw [w6_a3, w6_v21]; rfl
theorem w7_v13 : W7 m ρ c (Proc.devRef .tc main_v13) = addf (x0 m c) (nxt m c (x0 m c)) := by
  show StableHlo.after hostOps3 (W6 m ρ c) (Proc.devRef .tc main_v13) = _
  dsimp only [hostOps3]; after_results; exact w6_v13 m ρ c
theorem w7_v1 : W7 m ρ c (Proc.devRef .tc main_v1) = wt m c := by
  show StableHlo.after hostOps3 (W6 m ρ c) (Proc.devRef .tc main_v1) = _
  dsimp only [hostOps3]; after_results; exact w6_v1 m ρ c
theorem w7_a3 : W7 m ρ c (Proc.devRef .tc main_arg3) = m ((c : Thread nD τ).loc main_arg3) := by
  show StableHlo.after hostOps3 (W6 m ρ c) (Proc.devRef .tc main_arg3) = _
  dsimp only [hostOps3]; after_results; exact w6_a3 m ρ c
theorem w7_a4 : W7 m ρ c (Proc.devRef .tc main_arg4) = m ((c : Thread nD τ).loc main_arg4) := by
  show StableHlo.after hostOps3 (W6 m ρ c) (Proc.devRef .tc main_arg4) = _
  dsimp only [hostOps3]; after_results; exact w6_a4 m ρ c

/-! ## After the second accumulating launch: the table plus two rounds -/

theorem w8_v25 : W8 m ρ c (Proc.devRef .tc main_v25)
    = addf (addf (x0 m c) (nxt m c (x0 m c))) (nxt m c (nxt m c (x0 m c))) := by
  refine (W8_arr m ρ c 2).trans ((Sum3.result (V7 m ρ) c).trans ?_)
  show addf (W7 m ρ c (Proc.devRef .tc main_v13)) (W7 m ρ c (Proc.devRef .tc main_v24)) = _
  rw [w7_v13, w7_v24]
theorem w8_v24 : W8 m ρ c (Proc.devRef .tc main_v24) = nxt m c (nxt m c (x0 m c)) :=
  (W8_arr m ρ c 1).trans (((dat3 (V7 m ρ) c).arrAt_in 1 rfl _).trans ((A_eq3 (V7 m ρ) c 1).trans (w7_v24 m ρ c)))
theorem w8_v1 : W8 m ρ c (Proc.devRef .tc main_v1) = wt m c :=
  (W8_of_ne m ρ c main_v1 (by decide)).trans (w7_v1 m ρ c)
theorem w8_a3 : W8 m ρ c (Proc.devRef .tc main_arg3) = m ((c : Thread nD τ).loc main_arg3) :=
  (W8_of_ne m ρ c main_arg3 (by decide)).trans (w7_a3 m ρ c)
theorem w8_a4 : W8 m ρ c (Proc.devRef .tc main_arg4) = m ((c : Thread nD τ).loc main_arg4) :=
  (W8_of_ne m ρ c main_arg4 (by decide)).trans (w7_a4 m ρ c)

/-! ## Before the third scaling launch -/

theorem w9_v32 : W9 m ρ c (Proc.devRef .tc main_v32) = gth m c (nxt m c (nxt m c (x0 m c))) := by
  show StableHlo.after hostOps4 (W8 m ρ c) (Proc.devRef .tc main_v32) = _
  dsimp only [hostOps4]; after_results
  rw [w8_a4, w8_v24]; rfl
theorem w9_v1 : W9 m ρ c (Proc.devRef .tc main_v1) = wt m c := by
  show StableHlo.after hostOps4 (W8 m ρ c) (Proc.devRef .tc main_v1) = _
  dsimp only [hostOps4]; after_results; exact w8_v1 m ρ c
theorem w9_v25 : W9 m ρ c (Proc.devRef .tc main_v25)
    = addf (addf (x0 m c) (nxt m c (x0 m c))) (nxt m c (nxt m c (x0 m c))) := by
  show StableHlo.after hostOps4 (W8 m ρ c) (Proc.devRef .tc main_v25) = _
  dsimp only [hostOps4]; after_results; exact w8_v25 m ρ c
theorem w9_a3 : W9 m ρ c (Proc.devRef .tc main_arg3) = m ((c : Thread nD τ).loc main_arg3) := by
  show StableHlo.after hostOps4 (W8 m ρ c) (Proc.devRef .tc main_arg3) = _
  dsimp only [hostOps4]; after_results; exact w8_a3 m ρ c

/-! ## After the third scaling launch: the third messages -/

theorem w10_v33 : W10 m ρ c (Proc.devRef .tc main_v33) = scaled (gth m c (nxt m c (nxt m c (x0 m c)))) (wt m c) := by
  refine (W10_arr m ρ c 2).trans ((Scale4.result (V9 m ρ) c).trans ?_)
  show scaled (W9 m ρ c (Proc.devRef .tc main_v32)) (W9 m ρ c (Proc.devRef .tc main_v1)) = _
  rw [w9_v32, w9_v1]
theorem w10_v25 : W10 m ρ c (Proc.devRef .tc main_v25)
    = addf (addf (x0 m c) (nxt m c (x0 m c))) (nxt m c (nxt m c (x0 m c))) :=
  (W10_of_ne m ρ c main_v25 (by decide)).trans (w9_v25 m ρ c)
theorem w10_a3 : W10 m ρ c (Proc.devRef .tc main_arg3) = m ((c : Thread nD τ).loc main_arg3) :=
  (W10_of_ne m ρ c main_arg3 (by decide)).trans (w9_a3 m ρ c)

/-! ## Before the last accumulating launch: the third round's table -/

theorem w11_v36 : W11 m ρ c (Proc.devRef .tc main_v36) = nxt m c (nxt m c (nxt m c (x0 m c))) := by
  show StableHlo.after hostOps5 (W10 m ρ c) (Proc.devRef .tc main_v36) = _
  dsimp only [hostOps5]; after_results
  rw [w10_a3, w10_v33]; rfl
theorem w11_v25 : W11 m ρ c (Proc.devRef .tc main_v25)
    = addf (addf (x0 m c) (nxt m c (x0 m c))) (nxt m c (nxt m c (x0 m c))) := by
  show StableHlo.after hostOps5 (W10 m ρ c) (Proc.devRef .tc main_v25) = _
  dsimp only [hostOps5]; after_results; exact w10_v25 m ρ c

/-! ## After the last accumulating launch: the mean of the four tables -/

theorem w12_v37 : W12 m ρ c (Proc.devRef .tc main_v37)
    = quartered (addf (addf (x0 m c) (nxt m c (x0 m c))) (nxt m c (nxt m c (x0 m c)))) (nxt m c (nxt m c (nxt m c (x0 m c)))) := by
  refine (W12_arr m ρ c 2).trans ((Mean5.result (V11 m ρ) c).trans ?_)
  show quartered (W11 m ρ c (Proc.devRef .tc main_v25)) (W11 m ρ c (Proc.devRef .tc main_v36)) = _
  rw [w11_v25, w11_v36]

/-- The mean of the stacked table and its three rounds, in the kernel's spelling of one round. -/
abbrev mean : (⟨S150000x64, .f32⟩ : BufTy).Contents (Elt F) :=
  meanOfRounds (gth m c) (fun g => scaled g (wt m c)) (sct m c) addf quartered (x0 m c)

/-- The last launch's result is that mean. -/
theorem w12_v37_mean : W12 m ρ c (Proc.devRef .tc main_v37) = mean m c :=
  w12_v37 m ρ c

/-! ## The two results: the mean's user rows and its item rows -/

theorem users : W13 m ρ c (Proc.devRef .tc main_v38)
    = extractStridedSlice S100000x64 ![0, 0] (mean m c) slices_S150000x64_S100000x64_0_0 := by
  show StableHlo.after hostOps6 (W12 m ρ c) (Proc.devRef .tc main_v38) = _
  dsimp only [hostOps6]; after_results
  rw [w12_v37_mean]
theorem items : W13 m ρ c (Proc.devRef .tc main_v39)
    = extractStridedSlice S50000x64 ![100000, 0] (mean m c) slices_S150000x64_S50000x64_100000_0 := by
  show StableHlo.after hostOps6 (W12 m ρ c) (Proc.devRef .tc main_v39) = _
  dsimp only [hostOps6]; after_results
  rw [w12_v37_mean]

end Cert.KernelIdeal.Fold

end
-- ==== Proof.RefRounds.lean ====
/-
  The reference program's two results as the mean of three rounds.

  The reference is host operations only. Its generated run states each result as one long term of the argument arrays;
  read with the round named, that term is a slice of `meanOfRounds` of the stacked table: one round gathers the table's
  rows along the edges' column indices, multiplies the weight column spread along the rows with the gathered rows
  (`hostScaled`: the weight is the LEFT factor), and scatter-adds the products into a zero table at the edges' row
  indices; the four tables are summed left to right and the last sum divided by the float `4.0` (`hostQuartered`).
  The two equations here only fold the long terms back into those names.
-/
import proofs.«101684_j49675591745779_1_alg».proof.Proof.Gen.ReferenceIdeal.Run
import proofs.«101684_j49675591745779_1_alg».proof.Proof.Rounds

set_option maxRecDepth 16384

noncomputable section

namespace Cert.ReferenceIdeal.Rounds

open Cert.ReferenceIdeal Cert.ReferenceIdeal.Gen Cert.ReferenceIdeal.Value Cert.MessagePassing
open Idealize.ShloMosaic Idealize.ShloMosaic.TcCoe Idealize.SL.Sem

variable {F : FTy → Type} [FloatOps F]

/-- The node table: the user rows above the item rows. -/
def table (a0 : (⟨S100000x64, .f32⟩ : BufTy).Contents (Elt F)) (a1 : (⟨S50000x64, .f32⟩ : BufTy).Contents (Elt F)) :
    (⟨S150000x64, .f32⟩ : BufTy).Contents (Elt F) :=
  concatenate S150000x64 0 [⟨S100000x64, a0⟩, ⟨S50000x64, a1⟩] concatenates_S100000x64_S50000x64_S150000x64_d0

/-- The edge weights as a column. -/
def weights (a2 : (⟨S4000000, .f32⟩ : BufTy).Contents (Elt F)) : (⟨S4000000x1, .f32⟩ : BufTy).Contents (Elt F) :=
  broadcastInDim S4000000x1 ![0] bcast_S4000000_S4000000x1_0 a2

/-- The edges' column indices as a column, a negative one counted from the table's end. -/
def sources (a4 : (⟨S4000000, .i32⟩ : BufTy).Contents (Elt F)) : (⟨S4000000x1, .i32⟩ : BufTy).Contents (Elt F) :=
  broadcastInDim S4000000x1 ![0] bcast_S4000000_S4000000x1_0
    (select (cmpi .slt a4 (broadcastInDim S4000000 ![] bcast_S_S4000000 (constantI S_ 32 0#32)))
      (addi a4 (broadcastInDim S4000000 ![] bcast_S_S4000000 (constantI S_ 32 150000#32))) a4)

/-- The edges' row indices as a column. -/
def targets (a3 : (⟨S4000000, .i32⟩ : BufTy).Contents (Elt F)) : (⟨S4000000x1, .i32⟩ : BufTy).Contents (Elt F) :=
  broadcastInDim S4000000x1 ![0] bcast_S4000000_S4000000x1_0 a3

/-- A table's rows read along the edges' column indices. -/
def gathered (a4 : (⟨S4000000, .i32⟩ : BufTy).Contents (Elt F)) (x : (⟨S150000x64, .f32⟩ : BufTy).Contents (Elt F)) :
    (⟨S4000000x64, .f32⟩ : BufTy).Contents (Elt F) :=
  Host.gather gather_S150000x64_S4000000x1_S4000000x64_1_0_n_n_0_1_164 x (sources a4)

/-- Edge rows added into a zero table at the edges' row indices. -/
def scattered (a3 : (⟨S4000000, .i32⟩ : BufTy).Contents (Elt F)) (u : (⟨S4000000x64, .f32⟩ : BufTy).Contents (Elt F)) :
    (⟨S150000x64, .f32⟩ : BufTy).Contents (Elt F) :=
  Host.scatterAdd scatter_S150000x64_S4000000x1_S4000000x64_1_0_0_1
    (broadcastInDim S150000x64 ![] bcast_S_S150000x64 (constant S_ .f32 0x00000000#32)) (targets a3) u

/-- The messages as the host spells them: the weight column spread along the rows, times the gathered rows. -/
def hostScaled (w : (⟨S4000000x1, .f32⟩ : BufTy).Contents (Elt F)) (g : (⟨S4000000x64, .f32⟩ : BufTy).Contents (Elt F)) :
    (⟨S4000000x64, .f32⟩ : BufTy).Contents (Elt F) :=
  mulf (broadcastInDim S4000000x64 ![0, 1] bcast_S4000000x1_S4000000x64_0_1 w) g

/-- The closing step as the host spells it: the sum of two tables divided by the float `4.0`. -/
def hostQuartered (a b : (⟨S150000x64, .f32⟩ : BufTy).Contents (Elt F)) : (⟨S150000x64, .f32⟩ : BufTy).Contents (Elt F) :=
  Host.divf (addf a b) (broadcastInDim S150000x64 ![] bcast_S_S150000x64 (constant S_ .f32 0x40800000#32))

variable (m : (ℓ : Loc nD τ sig) → Buf (Elt F) ℓ) (c : Dev nD)

/-- The mean of the stacked table and its three rounds, in the reference's spelling. -/
abbrev mean : (⟨S150000x64, .f32⟩ : BufTy).Contents (Elt F) :=
  meanOfRounds (gathered (m ((c.tc : Thread nD τ).loc main_arg4))) (fun g => hostScaled (weights (m ((c.tc : Thread nD τ).loc main_arg2))) g)
    (scattered (m ((c.tc : Thread nD τ).loc main_arg3))) addf hostQuartered
    (table (m ((c.tc : Thread nD τ).loc main_arg0)) (m ((c.tc : Thread nD τ).loc main_arg1)))

/-- The first result is the mean's user rows. -/
theorem users : res_main_v45 m c = extractStridedSlice S100000x64 ![0, 0] (mean m c) slices_S150000x64_S100000x64_0_0 := by
  unfold res_main_v45; rfl

/-- The second result is the mean's item rows. -/
theorem items : res_main_v46 m c = extractStridedSlice S50000x64 ![100000, 0] (mean m c) slices_S150000x64_S50000x64_100000_0 := by
  unfold res_main_v46; rfl

end Cert.ReferenceIdeal.Rounds

end
-- ==== Proof.Bridge.lean ====
/-
  The kernel's mean of three rounds is the reference's.

  Both programs end at `meanOfRounds` of the same stacked table with the same gather and the same scatter-add. They
  differ in how a round scales the gathered rows — `row · weight` against `weight · row` — and in how the last sum
  is closed — times the float `0.25` against divided by the float `4.0`. On the extended reals the product commutes
  and a quotient by 4 is the product with 1/4 (Proof/Rounds.lean), so the two means are one array, and so are their
  user rows and their item rows. Nothing here needs the inputs finite.
-/
import proofs.«101684_j49675591745779_1_alg».proof.Proof.Fold
import proofs.«101684_j49675591745779_1_alg».proof.Proof.RefRounds

set_option maxRecDepth 16384

noncomputable section

namespace Cert.Bridge

open Idealize.ShloMosaic Idealize.ShloMosaic.TcCoe Idealize.SL.Sem Cert.MessagePassing

/-- One round's scaling, the kernel's spelling and the reference's: the same function of the gathered rows. -/
theorem scale_eq (a2 : (⟨Cert.KernelIdeal.S4000000, .f32⟩ : BufTy).Contents (Elt Ideal)) :
    (fun g => scaled (F := Ideal) g (Cert.KernelIdeal.Fold.weights a2))
      = fun g => Cert.ReferenceIdeal.Rounds.hostScaled (Cert.ReferenceIdeal.Rounds.weights a2) g :=
  funext fun g => scaled_eq_host Cert.ReferenceIdeal.Facts₀.bcast_S4000000x1_S4000000x64_0_1 g _

/-- The closing step, the kernel's spelling and the reference's: the same function of two tables. -/
theorem close_eq : (quartered (F := Ideal)) = Cert.ReferenceIdeal.Rounds.hostQuartered (F := Ideal) :=
  funext fun a => funext fun b => quartered_eq_host Cert.ReferenceIdeal.Facts₀.bcast_S_S150000x64 a b

/-- The two means over the same five arrays. -/
theorem mean_eq (a0 : (⟨Cert.KernelIdeal.S100000x64, .f32⟩ : BufTy).Contents (Elt Ideal))
    (a1 : (⟨Cert.KernelIdeal.S50000x64, .f32⟩ : BufTy).Contents (Elt Ideal))
    (a2 : (⟨Cert.KernelIdeal.S4000000, .f32⟩ : BufTy).Contents (Elt Ideal))
    (a3 a4 : (⟨Cert.KernelIdeal.S4000000, .i32⟩ : BufTy).Contents (Elt Ideal)) :
    meanOfRounds (Cert.KernelIdeal.Fold.gathered a4) (fun g => scaled g (Cert.KernelIdeal.Fold.weights a2))
        (Cert.KernelIdeal.Fold.scattered a3) (addf (F := Ideal) (s := Cert.KernelIdeal.S150000x64) (φ := .f32)) (quartered (F := Ideal)) (Cert.KernelIdeal.Fold.table a0 a1)
      = meanOfRounds (Cert.ReferenceIdeal.Rounds.gathered a4)
          (fun g => Cert.ReferenceIdeal.Rounds.hostScaled (Cert.ReferenceIdeal.Rounds.weights a2) g)
          (Cert.ReferenceIdeal.Rounds.scattered a3) (addf (F := Ideal) (s := Cert.ReferenceIdeal.S150000x64) (φ := .f32)) Cert.ReferenceIdeal.Rounds.hostQuartered
          (Cert.ReferenceIdeal.Rounds.table a0 a1) := by
  rw [scale_eq, close_eq]
  rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))

include h0 h1 h2 h3 h4

/-- From memories that agree on the five arguments the reference's mean is the kernel's. -/
theorem means : Cert.ReferenceIdeal.Rounds.mean m' c = Cert.KernelIdeal.Fold.mean m c := by
  unfold Cert.ReferenceIdeal.Rounds.mean
  rw [h0, h1, h2, h3, h4]
  exact (mean_eq _ _ _ _ _).symm

/-- The reference's first result is the kernel's mean's user rows. -/
theorem users : (Cert.ReferenceIdeal.Value.res_main_v45 m' c : (⟨Cert.ReferenceIdeal.S100000x64, .f32⟩ : BufTy).Contents (Elt Ideal))
    = extractStridedSlice Cert.KernelIdeal.S100000x64 ![0, 0] (Cert.KernelIdeal.Fold.mean m c) Cert.KernelIdeal.Facts₀.slices_S150000x64_S100000x64_0_0 := by
  rw [Cert.ReferenceIdeal.Rounds.users m' c, means m m' c h0 h1 h2 h3 h4]

/-- The reference's second result is the kernel's mean's item rows. -/
theorem items : (Cert.ReferenceIdeal.Value.res_main_v46 m' c : (⟨Cert.ReferenceIdeal.S50000x64, .f32⟩ : BufTy).Contents (Elt Ideal))
    = extractStridedSlice Cert.KernelIdeal.S50000x64 ![100000, 0] (Cert.KernelIdeal.Fold.mean m c) Cert.KernelIdeal.Facts₀.slices_S150000x64_S50000x64_100000_0 := by
  rw [Cert.ReferenceIdeal.Rounds.items m' c, means m m' c h0 h1 h2 h3 h4]

end Cert.Bridge

end
-- ==== Proof.lean ====
/-
  The kernel's message passing against the reference's: three rounds over an edge list, then the mean of four tables.

  Both programs stack the user rows above the item rows and run three rounds: gather the table's rows along the edges'
  column indices, multiply each gathered row by its edge's weight, and scatter-add the products into a zero table at the
  edges' row indices. The kernel does the multiplication in a launch of 500 row blocks and the running sum in launches of
  25 row blocks; the reference does both on the host. Two things differ in the arithmetic: the kernel multiplies
  `row · weight` where the reference multiplies `weight · row`, and the kernel closes the mean by a product with the
  float `0.25` where the reference divides by the float `4.0`. On the extended reals the product commutes and a
  quotient by 4 is the product with 1/4, whatever the operands, so the results agree entry by entry and the precondition
  is never opened.

  The three frames: the two kernel programs' by their frame certificates; the reference's is its run with the results
  dropped. The idealization rewrote nothing, so `preserves` is trivial. For `algebraic`, the kernel's run with its results
  named (Proof/NamedRun.lean) is read boundary by boundary (Proof/Fold.lean over the six launches' closed forms,
  Proof/Scale0 … Proof/Mean5), the reference's run is folded into the same shape (Proof/RefRounds.lean), and
  Proof/Bridge.lean joins the two by the two laws of Proof/Rounds.lean.
-/
import proofs.«101684_j49675591745779_1_alg».proof.Defs
import proofs.«101684_j49675591745779_1_alg».proof.Proof.Gen.Kernel
import proofs.«101684_j49675591745779_1_alg».proof.Proof.Gen.Kernel.Skeleton
import proofs.«101684_j49675591745779_1_alg».proof.Proof.Gen.Kernel.Launch
import proofs.«101684_j49675591745779_1_alg».proof.Proof.Gen.Kernel.Points
import proofs.«101684_j49675591745779_1_alg».proof.Proof.Gen.Kernel.Frame
import proofs.«101684_j49675591745779_1_alg».proof.Proof.Gen.KernelIdeal
import proofs.«101684_j49675591745779_1_alg».proof.Proof.Gen.KernelIdeal.Skeleton
import proofs.«101684_j49675591745779_1_alg».proof.Proof.Gen.KernelIdeal.Launch
import proofs.«101684_j49675591745779_1_alg».proof.Proof.Gen.KernelIdeal.Points
import proofs.«101684_j49675591745779_1_alg».proof.Proof.Gen.KernelIdeal.Frame
import proofs.«101684_j49675591745779_1_alg».proof.Proof.Gen.ReferenceIdeal
import proofs.«101684_j49675591745779_1_alg».proof.Proof.Gen.ReferenceIdeal.Run
import proofs.«101684_j49675591745779_1_alg».proof.Proof.Gen.Pre_finite_inputs
import proofs.«101684_j49675591745779_1_alg».proof.Proof.NamedRun
import proofs.«101684_j49675591745779_1_alg».proof.Proof.Fold
import proofs.«101684_j49675591745779_1_alg».proof.Proof.RefRounds
import proofs.«101684_j49675591745779_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the five arguments both programs end with the user rows and the item rows of one mean:
    the stacked table and its three rounds, summed and quartered. -/
theorem algebraic : Cert.algebraic_KernelIdeal_ReferenceIdeal := by
  intro m ρ m' ρ' _ hagree
  refine ⟨fun c => extractStridedSlice Cert.KernelIdeal.S100000x64 ![0, 0] (Cert.KernelIdeal.Fold.mean m c) Cert.KernelIdeal.Facts₀.slices_S150000x64_S100000x64_0_0,
    fun c => extractStridedSlice Cert.KernelIdeal.S50000x64 ![100000, 0] (Cert.KernelIdeal.Fold.mean m c) Cert.KernelIdeal.Facts₀.slices_S150000x64_S50000x64_100000_0, ?_, ?_⟩
  · exact (θ_run Cert.KernelIdeal.defs _ _).mono (fun _ h c =>
      ⟨(h c).1.trans (Cert.KernelIdeal.Fold.users m ρ c), (h c).2.1.trans (Cert.KernelIdeal.Fold.items m ρ c), (h c).2.2⟩)
      (Cert.KernelIdeal.Named.run_named m ρ)
  · exact (θ_run Cert.ReferenceIdeal.defs _ _).mono (fun _ h c =>
      ⟨(h c).1.trans (Cert.Bridge.users m m' c (hagree c).1 (hagree c).2.1 (hagree c).2.2.1 (hagree c).2.2.2.1 (hagree c).2.2.2.2),
       (h c).2.1.trans (Cert.Bridge.items m m' c (hagree c).1 (hagree c).2.1 (hagree c).2.2.1 (hagree c).2.2.2.1 (hagree c).2.2.2.2),
       (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
